-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel

variable [Facts]

def fn {F : FTy → Type} [FloatOps F] (main_arg0 : FVec F S8x4096x512 .f32) (main_arg1 : FVec F S8x4096x512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x512 .f32 := Host.absf main_arg1
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : IVec S_ 1 := andi main_v3 main_v7
  main_v8
-- ==== Kernel.lean ====
abbrev S8x4096x512 : Shape := ⟨3, ![8, 4096, 512]⟩
abbrev S8x4096x4096 : Shape := ⟨3, ![8, 4096, 4096]⟩
abbrev S1x1024x512 : Shape := ⟨3, ![1, 1024, 512]⟩
abbrev S1x1024x1024 : Shape := ⟨3, ![1, 1024, 1024]⟩
abbrev S1024x512 : Shape := ⟨2, ![1024, 512]⟩
abbrev S1024 : Shape := ⟨1, ![1024]⟩
abbrev S1024x1 : Shape := ⟨2, ![1024, 1]⟩
abbrev S1x1024 : Shape := ⟨2, ![1, 1024]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x4096, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x1024, .f32⟩
  | .local _ .vmem, ⟨5, _⟩ => ⟨S1x1024x1024, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  reduces_S1024x512_S1024 : S1024x512.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  transposes_S1024x512_p1_0_S512x1024 : S1024x512.Transposes [1, 0] S512x1024
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x4096x512.size a
  hwx0_0 : ∀ i : grid0.Coords, EltTy.bits .f32 = 32 ∨ (Rect.block (s := S8x4096x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x4096x512.size a
  hwx0_1 : ∀ i : grid0.Coords, EltTy.bits .f32 = 32 ∨ (Rect.block (s := S8x4096x512) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x4096x4096.size a
  hwx0_2 : ∀ i : grid0.Coords, EltTy.bits .f32 = 32 ∨ (Rect.block (s := S8x4096x4096) S1x1024x1024.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg1) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S_, .f32⟩
  | .hbm, ⟨4, _⟩ => ⟨S8x4096, .f32⟩
  | .hbm, ⟨5, _⟩ => ⟨S8x4096x512, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S_, .f32⟩
  | .hbm, ⟨26, _⟩ => ⟨S8x4096x4096, .f32⟩
  | .hbm, ⟨27, _⟩ => ⟨S8x4096x4096, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  reducesTo_S8x4096x512_S8x4096_d2 : S8x4096x512.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  dot_S8x4096x512_S8x4096x512_S8x4096x4096_2_2_1_1_0_0_wf : DotDims.WF S8x4096x512 S8x4096x512 S8x4096x4096 [2] [2] [1] [1] [0] [0]

variable [Facts₀]

def dot_S8x4096x512_S8x4096x512_S8x4096x4096_2_2_1_1_0_0 : DotDims S8x4096x512 S8x4096x512 S8x4096x4096 where
  lhsContracting := [2]
  rhsContracting := [2]
  lhsNonContracting := [1]
  rhsNonContracting := [1]
  lhsBatch := [0]
  rhsBatch := [0]
  wf := dot_S8x4096x512_S8x4096x512_S8x4096x4096_2_2_1_1_0_0_wf

class Facts : Prop extends Facts₀ where

variable [Facts]
-- ==== Proof.Score.lean ====
/-
  The quantity both programs compute, as ONE function of the two argument arrays, index by index.

  For a batch `b`, a query row `p` and a key row `r` (feature axis of extent 512):
    qq = ∑ d, Q[b,p,d]²        the query row's squared norm
    kk = ∑ d, K[b,r,d]²        the key row's squared norm
    qk = ∑ d, Q[b,p,d]·K[b,r,d] their inner product
  the squared distance by the norm expansion is `(qq + kk) − 2·qk`, floored at the literal ε, and the
  score is `1 / (1 + sqrt (max ((qq + kk) − 2·qk) ε))`.  Everything is on the extended reals: the three
  sums are finite sums of extended reals, `sqrt` and the quotient are the ideal ones.  The three float
  literals (2, ε, 1) are kept as their binary words: both programs spell the same words, so their values
  are never needed.  No law of arithmetic is used to join the two programs (they group the operations the same
  way), so nothing here asks the inputs to be finite.
-/
import Idealize.ShloMosaic.PureOps.Ideal
import Idealize.ShloMosaic.Lib.ValueIdx

noncomputable section

open scoped BigOperators

namespace Cert.Metric

open Idealize.ShloMosaic Idealize.ShloMosaic.ValueIdx

/-- A batch of 8 matrices of 4096 rows and 512 features: the shape of both arguments. -/
abbrev Rows : Shape := ⟨3, ![8, 4096, 512]⟩
/-- One score per batch, query row and key row: the shape of the result. -/
abbrev Pairs : Shape := ⟨3, ![8, 4096, 4096]⟩

/-- The squared norm of row `p` of batch `b`. -/
def sqNorm (A : FVec Ideal Rows .f32) (b : Fin 8) (p : Fin 4096) : EReal :=
  ∑ d : Fin 512, A (ix3 b p d) * A (ix3 b p d)

/-- The inner product of row `p` of `Q` and row `r` of `K`, in batch `b`. -/
def rowDot (Q K : FVec Ideal Rows .f32) (b : Fin 8) (p r : Fin 4096) : EReal :=
  ∑ d : Fin 512, Q (ix3 b p d) * K (ix3 b r d)

/-- The score from the two squared norms and the inner product: `1 / (1 + sqrt (max ((qq + kk) − 2·qk) ε))`. -/
def scoreOf (qq kk qk : EReal) : EReal :=
  Ideal.div (Ideal.ofBits .f32 0x3F800000#32)
    (Ideal.ofBits .f32 0x3F800000#32
      + Ideal.sqrt (max (qq + kk - Ideal.ofBits .f32 0x40000000#32 * qk) (Ideal.ofBits .f32 0x2B8CBCCC#32)))

/-- The whole result: at `(b, p, r)` the score of query row `p` against key row `r` in batch `b`. -/
def score (K Q : FVec Ideal Rows .f32) : FVec Ideal Pairs .f32 := fun i =>
  scoreOf (sqNorm Q (i 0) (i 1)) (sqNorm K (i 0) (i 2)) (rowDot Q K (i 0) (i 1) (i 2))

end Cert.Metric

end
-- ==== Proof.RefScore.lean ====
/-
  The reference computes the score.

  The reference squares each argument and sums over the feature axis (a host sum from the initial value 0, so
  `0 + ∑`, and `0 + x = x` on the extended reals whatever `x` is), contracts the two arguments over the feature
  axis with the batch axis shared (`∑ d, Q[b,p,d]·K[b,r,d]`), broadcasts the two squared norms along the other
  argument's row axis, and then applies, element by element, `(qq + kk) − 2·qk`, the floor at ε, the square root,
  `1 + ·` and `1 / ·`.  Read at an index `(b, p, r)`, stage by stage, that is `Cert.Metric.score` there: the
  broadcasts only forget a coordinate, so the row read for `qq` is `(b, p)` and the row read for `kk` is `(b, r)`.
-/
import proofs.«145104_j6597069767502_1_alg».proof.Proof.Gen.ReferenceIdeal.Read
import proofs.«145104_j6597069767502_1_alg».proof.Proof.Score

noncomputable section

open scoped BigOperators

namespace Cert.ReferenceIdeal.RefScore

open Cert.ReferenceIdeal Cert.ReferenceIdeal.Gen Cert.ReferenceIdeal.Read
open Idealize.ShloMosaic Idealize.ShloMosaic.ValueIdx Cert.Metric

/-- The row of the first squared norm: through the two broadcasts, `(b, p, r) ↦ (b, p)`, then the feature `k`. -/
theorem qrow (i : S8x4096x4096.Idx) (k : Fin 512) :
    idx_main_v1 (idx_main_v5 (idx_main_v7 i)) k = ix3 (i 0) (i 1) k :=
  funext fun a => Fin.ext (by match a with | ⟨0, _⟩ => rfl | ⟨1, _⟩ => rfl | ⟨2, _⟩ => rfl)

/-- The row of the second squared norm: `(b, p, r) ↦ (b, r)`, then the feature `k`. -/
theorem krow (i : S8x4096x4096.Idx) (k : Fin 512) :
    idx_main_v3 (idx_main_v6 (idx_main_v8 i)) k = ix3 (i 0) (i 2) k :=
  funext fun a => Fin.ext (by match a with | ⟨0, _⟩ => rfl | ⟨1, _⟩ => rfl | ⟨2, _⟩ => rfl)

/-- The contraction's left operand is read at `(b, p, k)` … -/
theorem lrow (i : S8x4096x4096.Idx) (k : Fin 512) : lidx_main_v4 i k = ix3 (i 0) (i 1) k :=
  funext fun a => Fin.ext (by match a with | ⟨0, _⟩ => rfl | ⟨1, _⟩ => rfl | ⟨2, _⟩ => rfl)

/-- … and its right operand at `(b, r, k)`. -/
theorem rrow (i : S8x4096x4096.Idx) (k : Fin 512) : ridx_main_v4 i k = ix3 (i 0) (i 2) k :=
  funext fun a => Fin.ext (by match a with | ⟨0, _⟩ => rfl | ⟨1, _⟩ => rfl | ⟨2, _⟩ => rfl)

/-- The reference's last stage is the score of its two arguments (`x0` the keys, `x1` the queries). -/
theorem ref_is_score (x0 x1 : FVec Ideal S8x4096x512 .f32) :
    val_main_v19 (F := Ideal) x0 x1 = score x0 x1 := by
  funext i
  simp only [val_main_v19_apply, val_main_v18_apply, val_main_cst_4_apply, val_main_v17_apply, val_main_v16_apply,
    val_main_cst_3_apply, val_main_v15_apply, val_main_v14_apply, val_main_v13_apply, val_main_cst_2_apply,
    val_main_v12_apply, val_main_v11_apply, val_main_v10_apply, val_main_cst_1_apply, val_main_v4_apply,
    val_main_v9_apply, val_main_v7_apply, val_main_v5_apply, val_main_v1_apply, val_main_v8_apply, val_main_v6_apply,
    val_main_v3_apply, val_main_cst_apply, val_main_cst_0_apply, val_main_v0_apply, val_main_v2_apply,
    qrow, krow, lrow, rrow,
    Ideal.hostDivf_def, Ideal.addf_def, Ideal.hostUnary_sqrt_def, Ideal.maximumf_def, Ideal.subf_def, Ideal.mulf_def,
    Ideal.ofBits_def, Ideal.ofBits_zero_f32, zero_add,
    val_main_v0, val_main_v2, mulf_apply,
    score, scoreOf, sqNorm, rowDot]
  rfl

end Cert.ReferenceIdeal.RefScore

end
-- ==== Proof.Body.lean ====
/-
  What the kernel's body stores, read at one entry.

  The body loads a block of 1024 query rows (`x0`) and a block of 1024 key rows (`x1`), each row of 512
  features.  It sums each row's squares (a lane sum from the accumulator 0), lays the query sums out as a column
  and the key sums as a row, multiplies the two blocks on the matrix unit (the key block transposed; the change of
  float format before the product is the identity on the extended reals, and the product is accumulated into a
  zero splat, so it is the plain sum `∑ d, x0[p,d]·x1[r,d]`), and applies `1 / (1 + sqrt (max ((qq + kk) − 2·qk) ε))`
  entry by entry.  So the stored value at `(p, r)` is `Cert.Metric.scoreOf` of the squared norm of query row `p`,
  the squared norm of key row `r`, and their inner product — all read inside the two loaded blocks.

  The layout steps, each read at an index: a vector laid out as a column, `[a] → [a,1]`, reads the vector at the
  row; a column spread over `b` columns, `[a,1] → [a,b]`, reads the column at the row; a transposed matrix reads the
  operand with the coordinates exchanged; dropping or adding a leading unit axis keeps the other coordinates.
-/
import proofs.«145104_j6597069767502_1_alg».proof.Proof.Gen.KernelIdeal.Skeleton
import proofs.«145104_j6597069767502_1_alg».proof.Proof.Score
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen
open Idealize.ShloMosaic Idealize.ShloMosaic.ValueIdx Idealize.ShloMosaic.Pipeline Cert.Metric

/-! ## Layout steps read at an index -/

/-- A vector laid out as a column reads, at `(p, 0)`, the vector at `p`. -/
theorem column_apply {a : ℕ} {α : Type} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) :=
  shapeCast_apply v h _ _ (by
    have hz : z.val = 0 := by omega
    rw [Shape.rowMajor_val_one, Shape.rowMajor_val_two]
    show p.val = p.val * 1 + z.val
    omega)

/-- A column spread over `b` columns reads, at `(p, c)`, the column at `p`. -/
theorem spread_column_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## A row's sum of squares -/

/-- The lane sum of the squares of a 1024 × 512 block, at row `p`: the sum over the 512 features. -/
theorem rowsum_sq (y : FVec Ideal S1024x512 .f32) (h : S1024x512.Reduces [1] S1024) (hφ : FKind.Formats .f32)
    (hacc : (0x00000000#32 : BitVec 32) = FKind.add.neutral .f32 hφ) (p : Fin 1024) :
    multiReduction .add [1] S1024 (mulf y y) 0x00000000#32 h hφ hacc (ix1 p) = ∑ d : Fin 512, y (ix2 p d) * y (ix2 p d) := by
  refine (Ideal.multiReduction_add_single (mulf y y) 0x00000000#32 h hφ hacc (ix1 p)).trans ?_
  refine Finset.sum_congr rfl fun d _ => ?_
  have e : h.lift (ix1 p) d = ix2 p d :=
    funext fun a => Fin.ext (by match a with | ⟨0, _⟩ => rfl | ⟨1, _⟩ => rfl)
  show y (h.lift (ix1 p) d) * y (h.lift (ix1 p) d) = _
  rw [e]
  rfl

/-! ## The product on the matrix unit -/

theorem lhs_rows_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_rows_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_rows_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_rows_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The matrix product into a zero accumulator, at `(p, r)`: the sum over the 512 contracted coordinates of the
    left operand's row `p` times the right operand's column `r`. -/
theorem matmul_rows (a : FVec Ideal S1024x512 .bf16) (b : FVec Ideal S512x1024 .bf16) (p r : Fin 1024) :
    matmul dot_S1024x512_S512x1024_S1024x1024_1_0_0_1_n_n none a b (constant (F := Ideal) S1024x1024 .f32 0x00000000#32) (ix2 p r)
      = ∑ d : Fin 512, a (ix2 p d) * b (ix2 d r) := by
  refine (Ideal.matmul_constant_zero_apply dot_S1024x512_S512x1024_S1024x1024_1_0_0_1_n_n none a b (ix2 p r)).trans ?_
  rw [← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 p r) ((ValueIdx.contrEquiv1 dot_S1024x512_S512x1024_S1024x1024_1_0_0_1_n_n 512 rfl rfl).symm k) = ix2 p k := funext fun ax => Fin.ext (by
    match ax with
    | ⟨0, _⟩ => exact lhs_rows_0 _ _
    | ⟨1, _⟩ => exact (lhs_rows_1 _ _).trans hk)
  have er : dot_S1024x512_S512x1024_S1024x1024_1_0_0_1_n_n.rhsIdx (ix2 p r) ((ValueIdx.contrEquiv1 dot_S1024x512_S512x1024_S1024x1024_1_0_0_1_n_n 512 rfl rfl).symm k) = ix2 k r := funext fun ax => Fin.ext (by
    match ax with
    | ⟨0, _⟩ => exact (rhs_rows_0 _ _).trans hk
    | ⟨1, _⟩ => exact rhs_rows_1 _ _)
  rw [el, er]

/-! ## The stored value at an entry -/

/-- The body's stored value at `(u, p, r)`: the score of query row `p` and key row `r` of the two loaded blocks. -/
theorem pay_apply (x0 x1 : Vec Ideal S1x1024x512 .f32) (u : Fin 1) (p r : Fin 1024) :
    k0_pay1 (F := Ideal) x0 x1 (ix3 u p r)
      = scoreOf (∑ d : Fin 512, x0 (ix3 (0 : Fin 1) p d) * x0 (ix3 (0 : Fin 1) p d))
          (∑ d : Fin 512, x1 (ix3 (0 : Fin 1) r d) * x1 (ix3 (0 : Fin 1) r d))
          (∑ d : Fin 512, x0 (ix3 (0 : Fin 1) p d) * x1 (ix3 (0 : Fin 1) r d)) := by
  unfold k0_pay1
  refine (shapeCast_ab_1ab_apply _ _ u p r).trans ?_
  refine Eq.trans (b := scoreOf _ _ _) rfl ?_
  congr 1
  · refine (spread_column_apply _ _ p r).trans ?_
    refine (column_apply _ _ p 0).trans ?_
    refine (rowsum_sq _ _ _ _ p).trans ?_
    refine Finset.sum_congr rfl fun d _ => ?_
    rw [shapeCast_1ab_ab_apply]
  · refine (broadcastTo_1b_ab_apply _ _ p r).trans ?_
    refine (transpose_ix2_apply _ _ (0 : Fin 1) r).trans ?_
    refine (column_apply _ _ r 0).trans ?_
    refine (rowsum_sq _ _ _ _ r).trans ?_
    refine Finset.sum_congr rfl fun d _ => ?_
    rw [shapeCast_1ab_ab_apply]
  · refine (matmul_rows _ _ p r).trans ?_
    refine Finset.sum_congr rfl fun d _ => ?_
    congr 1
    · exact shapeCast_1ab_ab_apply _ _ p d
    · exact (transpose_ix2_apply _ _ d r).trans (shapeCast_1ab_ab_apply _ _ r d)

end Cert.KernelIdeal.Body

end
-- ==== Proof.Whole.lean ====
/-
  From the blocks to the whole result array.

  The grid has 8 × 4 × 4 points `(b, qi, ki)`.  At a point the kernel is handed rows `1024·qi … 1024·qi + 1023` of
  the queries of batch `b` and rows `1024·ki … 1024·ki + 1023` of the keys of batch `b` (all 512 features), and writes
  back the 1024 × 1024 tile of the result at `(b, 1024·qi, 1024·ki)`.  Entry `(p, r)` of that tile is the score of the
  block's query row `p` against the block's key row `r` (`Body.pay_apply`), and those are rows `1024·qi + p` and
  `1024·ki + r` of the whole arguments: so the tile is the restriction of `Cert.Metric.score` of the whole arguments.
  The tiles of the 128 points cover the result (the tile holding `(b, i, j)` is the one at `(b, i / 1024, j / 1024)`), so
  after the run the result array IS the score of the arguments.
-/
import proofs.«145104_j6597069767502_1_alg».proof.Proof.Gen.KernelIdeal.Value
import proofs.«145104_j6597069767502_1_alg».proof.Proof.Body

noncomputable section

open scoped BigOperators

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Metric

variable (m : (ℓ : Loc nD τ sig) → Buf (Elt Ideal) ℓ) (ρ : Dev nD → PrngReg)

theorem zero_origin : (![0, 0, 0] : Fin 3 → Nat) = fun _ => 0 := funext fun a => by fin_cases a <;> rfl

/-- The three index maps over the grid: the query window follows the result's batch and row-tile, the key window the
    result's batch and column-tile, both at feature block 0; and the result's block indices stay in their ranges. -/
theorem tile_facts : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = win0_2.index t (2 : Fin 3)
    ∧ win0_1.index t (2 : Fin 3) = 0
    ∧ win0_2.index t (0 : Fin 3) ≤ 7 ∧ win0_2.index t (1 : Fin 3) ≤ 3 ∧ win0_2.index t (2 : Fin 3) ≤ 3 :=
  (by decide +kernel : ∀ t : Fin grid0.N, _)

/-- Every tile of the result is some point's. -/
theorem tile_onto : ∀ (q0 : Fin 8) (q1 : Fin 4) (q2 : Fin 4), ∃ t : Fin cfg0.N, win0_2.index t = ![q0.val, q1.val, q2.val] :=
  (by decide +kernel : ∀ (q0 : Fin 8) (q1 : Fin 4) (q2 : Fin 4), ∃ t : Fin grid0.N, win0_2.index t = ![q0.val, q1.val, q2.val])

/-- What point `t` writes back is tile `t` of the score of the argument arrays. -/
theorem tile_eq (c : Dev nD) (t : Fin cfg0.N) :
    (dats m 0 c).flushed 2 t = ((cfg0.win 2).blk t).view.read (Elt Ideal) (score (V m c main_arg0) (V m c main_arg1)) := by
  rw [Value.flushed2]
  unfold out0_2
  rw [View.canon_unit_zero zero_origin]
  simp only [View.ld_unit_zero (S := S1x1024x512) zero_origin]
  obtain ⟨e00, e01, e02, e10, e11, e12, -⟩ := tile_facts t
  funext j
  obtain ⟨u, p, r, rfl⟩ : ∃ (u : Fin 1) (p r : Fin 1024), j = ix3 u p r := ⟨j 0, j 1, j 2, eq_ix3 j⟩
  show k0_pay1 (F := Ideal) (iblk m c 0 t) (iblk m c 1 t) (ix3 u p r)
    = score (V m c main_arg0) (V m c main_arg1) (((cfg0.win 2).blk t).view.emb (ix3 u p r))
  refine (Body.pay_apply (iblk m c 0 t) (iblk m c 1 t) u p r).trans ?_
  have hu : u.val = 0 := by omega
  -- a query row of the block is a row of the whole queries
  have hq : ∀ d : Fin 512, iblk m c 0 t (ix3 (0 : Fin 1) p d)
      = V m c main_arg1 (ix3 ((((cfg0.win 2).blk t).view.emb (ix3 u p r)) 0) ((((cfg0.win 2).blk t).view.emb (ix3 u p r)) 1) d) := fun d => by
    show V m c main_arg1 (((cfg0.win 0).blk t).view.emb (ix3 (0 : Fin 1) p d)) = _
    refine congrArg (V m c main_arg1) (funext fun a => Fin.ext ?_)
    match a with
    | ⟨0, _⟩ => show win0_0.index t (0 : Fin 3) * 1 + 1 * 0 = win0_2.index t (0 : Fin 3) * 1 + 1 * u.val; omega
    | ⟨1, _⟩ => show win0_0.index t (1 : Fin 3) * 1024 + 1 * p.val = win0_2.index t (1 : Fin 3) * 1024 + 1 * p.val; omega
    | ⟨2, _⟩ => show win0_0.index t (2 : Fin 3) * 512 + 1 * d.val = d.val; omega
  -- a key row of the block is a row of the whole keys
  have hk : ∀ d : Fin 512, iblk m c 1 t (ix3 (0 : Fin 1) r d)
      = V m c main_arg0 (ix3 ((((cfg0.win 2).blk t).view.emb (ix3 u p r)) 0) ((((cfg0.win 2).blk t).view.emb (ix3 u p r)) 2) d) := fun d => by
    show V m c main_arg0 (((cfg0.win 1).blk t).view.emb (ix3 (0 : Fin 1) r d)) = _
    refine congrArg (V m c main_arg0) (funext fun a => Fin.ext ?_)
    match a with
    | ⟨0, _⟩ => show win0_1.index t (0 : Fin 3) * 1 + 1 * 0 = win0_2.index t (0 : Fin 3) * 1 + 1 * u.val; omega
    | ⟨1, _⟩ => show win0_1.index t (1 : Fin 3) * 1024 + 1 * r.val = win0_2.index t (2 : Fin 3) * 1024 + 1 * r.val; omega
    | ⟨2, _⟩ => show win0_1.index t (2 : Fin 3) * 512 + 1 * d.val = d.val; omega
  refine Eq.trans (b := scoreOf _ _ _) ?_ rfl
  congr 1
  · exact Finset.sum_congr rfl fun d _ => by rw [hq d]
  · exact Finset.sum_congr rfl fun d _ => by rw [hk d]
  · exact Finset.sum_congr rfl fun d _ => by rw [hq d, hk d]

/-- An index of the result is in point `t`'s tile iff each coordinate is in the tile's range on its axis. -/
theorem mem_tile (t : Fin cfg0.N) (i : S8x4096x4096.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v0).slice (win0_2.rect t)).set ↔ _
  rw [View.set_slice_whole, Rect.mem_set_unit]
  exact Iff.rfl

/-- The tiles cover the result: `(b, i, j)` lies in the tile at `(b, i / 1024, j / 1024)`. -/
theorem tiles_cover (i : S8x4096x4096.Idx) :
    ∃ t : Fin cfg0.N, (cfg0.win 2).flush t = true ∧ i ∈ ((cfg0.win 2).blk t).view.set := by
  have hi0 : (i 0).val < 8 := (i 0).isLt
  have hi1 : (i 1).val < 4096 := (i 1).isLt
  have hi2 : (i 2).val < 4096 := (i 2).isLt
  obtain ⟨t, ht⟩ := tile_onto ⟨(i 0).val, hi0⟩ ⟨(i 1).val / 1024, by omega⟩ ⟨(i 2).val / 1024, by omega⟩
  have q0 : win0_2.index t (0 : Fin 3) = (i 0).val := congrFun ht 0
  have q1 : win0_2.index t (1 : Fin 3) = (i 1).val / 1024 := congrFun ht 1
  have q2 : win0_2.index t (2 : Fin 3) = (i 2).val / 1024 := congrFun ht 2
  refine ⟨t, flush0_2 t, ?_⟩
  rw [mem_tile]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- The result array after the run is the score of the argument arrays. -/
theorem result_eq (c : Dev nD) :
    (dats m 0 c).arrAt 2 cfg0.N = score (m ((c : Thread nD τ).loc main_arg0)) (m ((c : Thread nD τ).loc main_arg1)) :=
  (dats m 0 c).arrAt_eq_of_cover 2 (score (V m c main_arg0) (V m c main_arg1)) (fun t _ => tile_eq m c t) tiles_cover

/-- The kernel's run: it terminates with the result array at the score of the arguments and the arguments unchanged. -/
theorem run : θ_run defs (onTc (τ := τ) (main (F := Ideal))) ⟨m, fun _ => 0, ρ⟩ fun r => ∀ c : Dev nD,
      r.2.mem ((c : Thread nD τ).loc main_v0) = score (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩) (Value.run_blocks m ρ)

end Cert.KernelIdeal.Whole

end
-- ==== Proof.lean ====
/-
  A pairwise-distance score on the matrix unit against its jnp reference, over the extended reals.

  Both programs take keys and queries of shape [8, 4096, 512] and return, for every batch `b`, query row `p` and key
  row `r`, `1 / (1 + sqrt (max (‖q‖² + ‖k‖² − 2·q·k) ε))` with `‖q‖² = ∑ d, Q[b,p,d]²`, `‖k‖² = ∑ d, K[b,r,d]²`
  and `q·k = ∑ d, Q[b,p,d]·K[b,r,d]` (`Cert.Metric.score`).  The kernel computes it tile by tile — 1024 query rows
  against 1024 key rows at each of 8 × 4 × 4 grid points, the inner products as one matrix product per tile — and the
  reference on the whole arrays with a batched contraction.  The two group the arithmetic the same way and spell the
  same three float literals, so once each side is read at an index they are the same term: no law of arithmetic joins
  them, and finiteness of the inputs is never used.

  The kernel's side: the stored value at a tile entry (`Body.pay_apply`), the tile as a restriction of the score of the
  whole arguments and the tiles' cover (`Whole.tile_eq`, `Whole.tiles_cover`), hence the run's result (`Whole.run`).
  The reference's side: its last stage read at an index is the score (`RefScore.ref_is_score`).  The three frames are
  the runs with the value dropped; the idealization rewrote no operation, so `preserves` has nothing to state.
-/
import proofs.«145104_j6597069767502_1_alg».proof.Defs
import proofs.«145104_j6597069767502_1_alg».proof.Proof.Gen.Kernel
import proofs.«145104_j6597069767502_1_alg».proof.Proof.Gen.Kernel.Skeleton
import proofs.«145104_j6597069767502_1_alg».proof.Proof.Gen.Kernel.Launch
import proofs.«145104_j6597069767502_1_alg».proof.Proof.Gen.Kernel.Points
import proofs.«145104_j6597069767502_1_alg».proof.Proof.Gen.Kernel.Frame
import proofs.«145104_j6597069767502_1_alg».proof.Proof.Gen.KernelIdeal
import proofs.«145104_j6597069767502_1_alg».proof.Proof.Gen.KernelIdeal.Skeleton
import proofs.«145104_j6597069767502_1_alg».proof.Proof.Gen.KernelIdeal.Launch
import proofs.«145104_j6597069767502_1_alg».proof.Proof.Gen.KernelIdeal.Points
import proofs.«145104_j6597069767502_1_alg».proof.Proof.Gen.KernelIdeal.Frame
import proofs.«145104_j6597069767502_1_alg».proof.Proof.Gen.ReferenceIdeal
import proofs.«145104_j6597069767502_1_alg».proof.Proof.Gen.Pre_finite_inputs
import proofs.«145104_j6597069767502_1_alg».proof.Proof.Gen.KernelIdeal.Value
import proofs.«145104_j6597069767502_1_alg».proof.Proof.Gen.ReferenceIdeal.Run
import proofs.«145104_j6597069767502_1_alg».proof.Proof.Gen.ReferenceIdeal.Read
import proofs.«145104_j6597069767502_1_alg».proof.Proof.RefScore
import proofs.«145104_j6597069767502_1_alg».proof.Proof.Whole
import Idealize.ShloMosaic.Adequacy
import Idealize.ShloMosaic.Init

noncomputable section

namespace Cert.Proof

open Idealize.ShloMosaic Idealize.SL.Sem Cert.Kernel

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, with its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories that agree on keys and queries both programs end with the score of those arguments. -/
theorem algebraic : Cert.algebraic_KernelIdeal_ReferenceIdeal := by
  intro m ρ m' ρ' _ hagree
  refine ⟨fun c => Cert.Metric.score (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefScore.ref_is_score, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
